-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x8 .f32) (main_arg3 : FVec F S8 .f32) (main_arg4 : FVec F S8x16 .f32) (main_arg5 : FVec F S16 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x8 .f32 := Host.absf main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S20000x128 : Shape := ⟨2, ![20000, 128]⟩
abbrev S20000x8 : Shape := ⟨2, ![20000, 8]⟩
abbrev S6600000x8 : Shape := ⟨2, ![6600000, 8]⟩
abbrev S1x8 : Shape := ⟨2, ![1, 8]⟩
abbrev S200000x16 : Shape := ⟨2, ![200000, 16]⟩
abbrev S20000x16 : Shape := ⟨2, ![20000, 16]⟩
abbrev S6600000x16 : Shape := ⟨2, ![6600000, 16]⟩
abbrev S1x16 : Shape := ⟨2, ![1, 16]⟩

abbrev nBuf : Space → Nat
  | .hbm => 89
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x8, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x8, .f32⟩
  | .hbm, ⟨66, _⟩ => ⟨S_, .f32⟩
  | .hbm, ⟨67, _⟩ => ⟨S200000x8, .f32⟩
  | .hbm, ⟨68, _⟩ => ⟨S200000x8, .f32⟩
  | .hbm, ⟨69, _⟩ => ⟨S200000x16, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000x16, .f32⟩
  | .hbm, ⟨79, _⟩ => ⟨S6600000x1, .f32⟩
  | .hbm, ⟨80, _⟩ => ⟨S6600000x16, .f32⟩
  | .hbm, ⟨81, _⟩ => ⟨S6600000x16, .f32⟩
  | .hbm, ⟨82, _⟩ => ⟨S_, .f32⟩
  | .hbm, ⟨83, _⟩ => ⟨S200000x16, .f32⟩
  | .hbm, ⟨84, _⟩ => ⟨S6600000x1, .i32⟩
  | .hbm, ⟨85, _⟩ => ⟨S200000x16, .f32⟩
  | .hbm, ⟨86, _⟩ => ⟨S1x16, .f32⟩
  | .hbm, ⟨87, _⟩ => ⟨S200000x16, .f32⟩
  | .hbm, ⟨88, _⟩ => ⟨S200000x16, .f32⟩
  | .local _ .vmem, ⟨0, _⟩ => ⟨S20000x128, .f32⟩
  | .local _ .vmem, ⟨1, _⟩ => ⟨S20000x128, .f32⟩
  | .local _ .vmem, ⟨2, _⟩ => ⟨S128x8, .f32⟩
  | .local _ .vmem, ⟨3, _⟩ => ⟨S20000x8, .f32⟩
  | .local _ .vmem, ⟨4, _⟩ => ⟨S20000x8, .f32⟩
  | .local _ .vmem, ⟨5, _⟩ => ⟨S20000x8, .f32⟩
  | .local _ .vmem, ⟨6, _⟩ => ⟨S20000x8, .f32⟩
  | .local _ .vmem, ⟨7, _⟩ => ⟨S8x16, .f32⟩
  | .local _ .vmem, ⟨8, _⟩ => ⟨S20000x16, .f32⟩
  | .local _ .vmem, ⟨9, _⟩ => ⟨S20000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S20000x8_S20000x8_0_0 : ∀ a, (![0, 0] : Fin 2 → Nat) a + S20000x8.size a ≤ S20000x8.size a
  h_S20000x8 : 0 < S20000x8.numel
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  shapeCasts_S20000x8_S20000x8 : S20000x8.ShapeCasts S20000x8
  inb_S8x16_S8x16_0_0 : ∀ a, (![0, 0] : Fin 2 → Nat) a + S8x16.size a ≤ S8x16.size a
  h_S8x16 : 0 < S8x16.numel
  inb_S20000x16_S20000x16_0_0 : ∀ a, (![0, 0] : Fin 2 → Nat) a + S20000x16.size a ≤ S20000x16.size a
  h_S20000x16 : 0 < S20000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S20000x128_S128x8_S20000x8_1_0_0_1_n_n_wf : DotDims.WF S20000x128 S128x8 S20000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S20000x8_S8x16_S20000x16_1_0_0_1_n_n_wf : DotDims.WF S20000x8 S8x16 S20000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S200000x128.size a
  hwx0_0 : ∀ i : grid0.Coords, EltTy.bits .f32 = 32 ∨ (Rect.block (s := S200000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x8.size a ≤ S200000x8.size a
  hwx0_2 : ∀ i : grid0.Coords, EltTy.bits .f32 = 32 ∨ (Rect.block (s := S200000x8) S20000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x8.size a ≤ S200000x8.size a
  hwx1_0 : ∀ i : grid1.Coords, EltTy.bits .f32 = 32 ∨ (Rect.block (s := S200000x8) S20000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S200000x16.size a
  hwx1_2 : ∀ i : grid1.Coords, EltTy.bits .f32 = 32 ∨ (Rect.block (s := S200000x16) S20000x16.size (cc1_transform_2 i) (hinb1_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S20000x128_S128x8_S20000x8_1_0_0_1_n_n : DotDims S20000x128 S128x8 S20000x8 where
  lhsContracting := [1]
  rhsContracting := [0]
  lhsNonContracting := [0]
  rhsNonContracting := [1]
  lhsBatch := []
  rhsBatch := []
  wf := dot_S20000x128_S128x8_S20000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S20000x8_S8x16_S20000x16_1_0_0_1_n_n : DotDims S20000x8 S8x16 S20000x16 where
  lhsContracting := [1]
  rhsContracting := [0]
  lhsNonContracting := [0]
  rhsNonContracting := [1]
  lhsBatch := []
  rhsBatch := []
  wf := dot_S20000x8_S8x16_S20000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S6600000x8 : Shape := ⟨2, ![6600000, 8]⟩
abbrev S1x8 : Shape := ⟨2, ![1, 8]⟩
abbrev S200000x16 : Shape := ⟨2, ![200000, 16]⟩
abbrev S6600000x16 : Shape := ⟨2, ![6600000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x8, .f32⟩
  | .hbm, ⟨28, _⟩ => ⟨S_, .i32⟩
  | .hbm, ⟨29, _⟩ => ⟨S6600000, .i32⟩
  | .hbm, ⟨30, _⟩ => ⟨S6600000, .i1⟩
  | .hbm, ⟨31, _⟩ => ⟨S_, .i32⟩
  | .hbm, ⟨32, _⟩ => ⟨S6600000, .i32⟩
  | .hbm, ⟨33, _⟩ => ⟨S6600000, .i32⟩
  | .hbm, ⟨34, _⟩ => ⟨S6600000, .i32⟩
  | .hbm, ⟨35, _⟩ => ⟨S6600000x1, .i32⟩
  | .hbm, ⟨36, _⟩ => ⟨S6600000, .f32⟩
  | .hbm, ⟨37, _⟩ => ⟨S_, .i32⟩
  | .hbm, ⟨38, _⟩ => ⟨S6600000, .i32⟩
  | .hbm, ⟨39, _⟩ => ⟨S6600000, .i1⟩
  | .hbm, ⟨40, _⟩ => ⟨S_, .i32⟩
  | .hbm, ⟨41, _⟩ => ⟨S6600000, .i32⟩
  | .hbm, ⟨42, _⟩ => ⟨S6600000, .i32⟩
  | .hbm, ⟨43, _⟩ => ⟨S6600000, .i32⟩
  | .hbm, ⟨44, _⟩ => ⟨S6600000x1, .i32⟩
  | .hbm, ⟨45, _⟩ => ⟨S6600000, .f32⟩
  | .hbm, ⟨46, _⟩ => ⟨S6600000, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x8, .f32⟩
  | .hbm, ⟨66, _⟩ => ⟨S_, .f32⟩
  | .hbm, ⟨67, _⟩ => ⟨S200000x8, .f32⟩
  | .hbm, ⟨68, _⟩ => ⟨S200000x8, .f32⟩
  | .hbm, ⟨69, _⟩ => ⟨S200000x16, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000, .f32⟩
  | .hbm, ⟨79, _⟩ => ⟨S_, .i32⟩
  | .hbm, ⟨80, _⟩ => ⟨S6600000, .i32⟩
  | .hbm, ⟨81, _⟩ => ⟨S6600000, .i1⟩
  | .hbm, ⟨82, _⟩ => ⟨S_, .i32⟩
  | .hbm, ⟨83, _⟩ => ⟨S6600000, .i32⟩
  | .hbm, ⟨84, _⟩ => ⟨S6600000, .i32⟩
  | .hbm, ⟨85, _⟩ => ⟨S6600000, .i32⟩
  | .hbm, ⟨86, _⟩ => ⟨S6600000x1, .i32⟩
  | .hbm, ⟨87, _⟩ => ⟨S6600000, .f32⟩
  | .hbm, ⟨88, _⟩ => ⟨S6600000, .f32⟩
  | .hbm, ⟨89, _⟩ => ⟨S_, .i32⟩
  | .hbm, ⟨90, _⟩ => ⟨S6600000, .i32⟩
  | .hbm, ⟨91, _⟩ => ⟨S6600000, .i1⟩
  | .hbm, ⟨92, _⟩ => ⟨S_, .i32⟩
  | .hbm, ⟨93, _⟩ => ⟨S6600000, .i32⟩
  | .hbm, ⟨94, _⟩ => ⟨S6600000, .i32⟩
  | .hbm, ⟨95, _⟩ => ⟨S6600000, .i32⟩
  | .hbm, ⟨96, _⟩ => ⟨S6600000x1, .i32⟩
  | .hbm, ⟨97, _⟩ => ⟨S6600000x16, .f32⟩
  | .hbm, ⟨98, _⟩ => ⟨S6600000x1, .f32⟩
  | .hbm, ⟨99, _⟩ => ⟨S6600000x16, .f32⟩
  | .hbm, ⟨100, _⟩ => ⟨S6600000x16, .f32⟩
  | .hbm, ⟨101, _⟩ => ⟨S_, .f32⟩
  | .hbm, ⟨102, _⟩ => ⟨S200000x16, .f32⟩
  | .hbm, ⟨103, _⟩ => ⟨S6600000x1, .i32⟩
  | .hbm, ⟨104, _⟩ => ⟨S200000x16, .f32⟩
  | .hbm, ⟨105, _⟩ => ⟨S1x16, .f32⟩
  | .hbm, ⟨106, _⟩ => ⟨S200000x16, .f32⟩
  | .hbm, ⟨107, _⟩ => ⟨S200000x16, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  dot_S200000x128_S128x8_S200000x8_1_0_0_1_n_n_wf : DotDims.WF S200000x128 S128x8 S200000x8 [1] [0] [0] [1] [] []
  gather_S200000_S6600000x1_S6600000_n_0_n_n_0_1_1_wf : GatherDims.WF S200000 S6600000x1 S6600000 [] [0] [] [0] [] 1 ![1]
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x16_S200000x16_1_0_0_1_n_n_wf : DotDims.WF S200000x8 S8x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S200000x128_S128x8_S200000x8_1_0_0_1_n_n : DotDims S200000x128 S128x8 S200000x8 where
  lhsContracting := [1]
  rhsContracting := [0]
  lhsNonContracting := [0]
  rhsNonContracting := [1]
  lhsBatch := []
  rhsBatch := []
  wf := dot_S200000x128_S128x8_S200000x8_1_0_0_1_n_n_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x16_S200000x16_1_0_0_1_n_n : DotDims S200000x8 S8x16 S200000x16 where
  lhsContracting := [1]
  rhsContracting := [0]
  lhsNonContracting := [0]
  rhsNonContracting := [1]
  lhsBatch := []
  rhsBatch := []
  wf := dot_S200000x8_S8x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«145075_j53197464928416_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Region0.lean ====
/-
  Layer 1's projection x · W1, computed by the kernel's first region ten row blocks at a time.

  The kernel does not hold the feature matrix x [200000, 128] whole: it visits ten grid points, and at point t it holds the rows
  20000·t … 20000·t + 19999 of it together with the whole weight matrix, multiplies the two into a zero
  accumulator (the change of float format before the product is the identity on the extended reals) and
  writes the [20000, 8] result back as rows 20000·t … 20000·t + 19999 of the output array.

  Entry (p, q) of a product is the sum over k of (row p of the left matrix at k) · (column q of the weights at
  k): it reads ONE row of the left matrix. So the rows a point computes are exactly those rows of the whole
  product, and since the ten row blocks tile the 200000 rows, the output array ends holding the whole product
  `prod left weights` — the function the host's general dot product computes. No sum is regrouped, so nothing
  here asks the entries to be finite.

  Everything is stated at the contents `V` the core's buffers hold when the region is entered, whatever they
  are: the run instantiates `V` later.
-/
import proofs.«145075_j53197464928416_1_alg».proof.Proof.Gen.KernelIdeal.Frame
import proofs.«145075_j53197464928416_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

namespace Cert.KernelIdeal.Layer1

open Cert.KernelIdeal Cert.KernelIdeal.Gen

variable (V : (c : Dev nD) → (b : Ref sig .tc) → Buf (Elt Ideal) ((c : Thread nD τ).loc b))

/-- The body's one load and one store per buffer start at the buffer's origin. -/
theorem origin : (![0, 0] : Fin 2 → Nat) = fun _ => 0 := funext fun a => by fin_cases a <;> rfl

/-- The body's product contracts the left block's columns with the weights' rows, no batch axis, rows then columns. -/
theorem plain : IsPlain dot_S20000x128_S128x8_S20000x8_1_0_0_1_n_n := ⟨rfl, rfl, rfl, rfl, rfl, rfl⟩

/-- The left matrix as the region finds it. -/
abbrev left (c : Dev nD) : S200000x128.Idx → EReal := V c main_arg0
/-- The weight matrix as the region finds it. -/
abbrev weights (c : Dev nD) : S128x8.Idx → EReal := V c main_arg2
/-- The whole product of the two: entry (p, q) is the sum over k of left (p, k) · weights (k, q). -/
abbrev whole (c : Dev nD) : S200000x8.Idx → EReal := prod (R := 200000) (K := 128) (N := 8) (left V c) (weights V c)

/-- The body's stored value at an entry: when the left block holds the rows from `o` on of a matrix `A` and the
    right block is `B`, entry (p, q) is the whole product of `A` and `B` at (o + p, q). -/
theorem stored_apply (A : S200000x128.Idx → EReal) (B : S128x8.Idx → EReal)
    (x0 : Vec Ideal S20000x128 .f32) (x1 : Vec Ideal S128x8 .f32) (o : ℕ) (ho : o + 20000 ≤ 200000)
    (hx0 : ∀ (p : Fin 20000) (k : Fin 128), x0 (ix2 p k) = A (ix2 ⟨o + p.val, by have := p.isLt; omega⟩ k))
    (hx1 : ∀ (k : Fin 128) (q : Fin 8), x1 (ix2 k q) = B (ix2 k q)) (p : Fin 20000) (q : Fin 8) :
    k0_pay1 (F := Ideal) x0 x1 (ix2 p q) = prod (R := 200000) (K := 128) (N := 8) A B (ix2 ⟨o + p.val, by have := p.isLt; omega⟩ q) := by
  unfold k0_pay1
  exact matmul_rows (R := 200000) plain none A B _ _ o ho (fun p k => hx0 p k) (fun k q => hx1 k q) p q

/-- The printed index maps, decided over the ten grid points: the left window and the output window sit at row
    block t, the weights' window at the one block there is. -/
theorem points : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt (show cfg0.N = 10 from N_0)

/-- The left window's block at point t is the rows 20000·t … 20000·t + 19999 of the left matrix. -/
theorem left_block (c : Dev nD) (t : Fin cfg0.N) (p : Fin 20000) (k : Fin 128) :
    (iblk0 V c 0 t : Vec Ideal S20000x128 .f32) (ix2 p k)
      = left V c (ix2 ⟨t.val * 20000 + p.val, by have := point_lt t; have := p.isLt; omega⟩ k) := by
  obtain ⟨e0, e1, -⟩ := points t
  unfold iblk0
  rw [View.read_apply]
  show V c main_arg0 _ = V c main_arg0 _
  refine congrArg (V c main_arg0) ?_
  funext a; apply Fin.ext
  match a with
  | ⟨0, _⟩ => show win0_0.index t (0 : Fin 2) * 20000 + 1 * p.val = t.val * 20000 + p.val; rw [e0]; omega
  | ⟨1, _⟩ => show win0_0.index t (1 : Fin 2) * 128 + 1 * k.val = k.val; rw [e1]; omega

/-- The weights' window's block at every point is the whole weight matrix. -/
theorem weights_block (c : Dev nD) (t : Fin cfg0.N) (k : Fin 128) (q : Fin 8) :
    (iblk0 V c 1 t : Vec Ideal S128x8 .f32) (ix2 k q) = weights V c (ix2 k q) := by
  obtain ⟨-, -, e2, e3, -⟩ := points t
  unfold iblk0
  rw [View.read_apply]
  show V c main_arg2 _ = V c main_arg2 _
  refine congrArg (V c main_arg2) ?_
  funext a; apply Fin.ext
  match a with
  | ⟨0, _⟩ => show win0_1.index t (0 : Fin 2) * 128 + 1 * k.val = k.val; rw [e2]; omega
  | ⟨1, _⟩ => show win0_1.index t (1 : Fin 2) * 8 + 1 * q.val = q.val; rw [e3]; omega

/-- WHAT POINT t WRITES BACK is block t of the whole product. -/
theorem written (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero origin]
  simp only [View.ld_unit_zero (S := S20000x128) origin, View.ld_unit_zero (S := S128x8) origin]
  obtain ⟨-, -, -, -, e4, e5⟩ := points t
  funext j
  obtain ⟨p, q, rfl⟩ : ∃ (p : Fin 20000) (q : Fin 8), j = ix2 p q := ⟨j 0, j 1, eq_ix2 j⟩
  refine (stored_apply (left V c) (weights V c) _ _ (t.val * 20000) (by have := point_lt t; omega)
    (fun p k => left_block V c t p k) (fun k q => weights_block V c t k q) p q).trans ?_
  show whole V c _ = whole V c (((cfg0.win 2).blk t).view.emb (ix2 p q))
  refine congrArg (whole V c) ?_
  funext a; apply Fin.ext
  match a with
  | ⟨0, _⟩ => show t.val * 20000 + p.val = win0_2.index t (0 : Fin 2) * 20000 + 1 * p.val; rw [e4]; omega
  | ⟨1, _⟩ => show q.val = win0_2.index t (1 : Fin 2) * 8 + 1 * q.val; rw [e5]; omega

/-- An index of the output array is in point t's block iff each coordinate is in the block's range on its axis. -/
theorem mem_block (t : Fin cfg0.N) (i : S200000x8.Idx) :
    i ∈ ((cfg0.win 2).blk t).view.set ↔ ∀ a : Fin 2, win0_2.index t a * S20000x8.size a ≤ (i a).val ∧ (i a).val < win0_2.index t a * S20000x8.size a + S20000x8.size a := by
  show i ∈ ((View.whole main_v30).slice (win0_2.rect t)).set ↔ _
  rw [View.set_slice_whole, Rect.mem_set_unit]
  exact Iff.rfl

/-- Every index of the output array is in SOME point's block: row r is in block r / 20000. -/
theorem covered (i : S200000x8.Idx) :
    ∃ t : Fin cfg0.N, (cfg0.win 2).flush t = true ∧ i ∈ ((cfg0.win 2).blk t).view.set := by
  have hi0 : (i 0).val < 200000 := (i 0).isLt
  have hi1 : (i 1).val < 8 := (i 1).isLt
  have hN : cfg0.N = 10 := N_0
  let t : Fin cfg0.N := ⟨(i 0).val / 20000, by rw [hN]; omega⟩
  obtain ⟨-, -, -, -, e4, e5⟩ := points t
  have ht : t.val = (i 0).val / 20000 := rfl
  refine ⟨t, flush0_2 t, ?_⟩
  rw [mem_block]
  intro a
  match a with
  | ⟨0, _⟩ => show win0_2.index t (0 : Fin 2) * 20000 ≤ (i 0).val ∧ (i 0).val < win0_2.index t (0 : Fin 2) * 20000 + 20000; rw [e4, ht]; omega
  | ⟨1, _⟩ => show win0_2.index t (1 : Fin 2) * 8 ≤ (i 1).val ∧ (i 1).val < win0_2.index t (1 : Fin 2) * 8 + 8; rw [e5]; omega

/-- THE OUTPUT ARRAY after the region's ten points is the whole product of the two input arrays as entered. -/
theorem final (c : Dev nD) : (dat0 V c).arrAt 2 cfg0.N = whole V c :=
  (dat0 V c).arrAt_eq_of_cover 2 (whole V c) (fun t _ => written V c t) (covered)

end Cert.KernelIdeal.Layer1

end
-- ==== Proof.Region1.lean ====
/-
  Layer 2's projection h1 · W2, computed by the kernel's second region ten row blocks at a time.

  The kernel does not hold the hidden features h1 [200000, 8] whole: it visits ten grid points, and at point t it holds the rows
  20000·t … 20000·t + 19999 of it together with the whole weight matrix, multiplies the two into a zero
  accumulator (the change of float format before the product is the identity on the extended reals) and
  writes the [20000, 16] result back as rows 20000·t … 20000·t + 19999 of the output array.

  Entry (p, q) of a product is the sum over k of (row p of the left matrix at k) · (column q of the weights at
  k): it reads ONE row of the left matrix. So the rows a point computes are exactly those rows of the whole
  product, and since the ten row blocks tile the 200000 rows, the output array ends holding the whole product
  `prod left weights` — the function the host's general dot product computes. No sum is regrouped, so nothing
  here asks the entries to be finite.

  Everything is stated at the contents `V` the core's buffers hold when the region is entered, whatever they
  are: the run instantiates `V` later.
-/
import proofs.«145075_j53197464928416_1_alg».proof.Proof.Gen.KernelIdeal.Frame
import proofs.«145075_j53197464928416_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

namespace Cert.KernelIdeal.Layer2

open Cert.KernelIdeal Cert.KernelIdeal.Gen

variable (V : (c : Dev nD) → (b : Ref sig .tc) → Buf (Elt Ideal) ((c : Thread nD τ).loc b))

/-- The body's one load and one store per buffer start at the buffer's origin. -/
theorem origin : (![0, 0] : Fin 2 → Nat) = fun _ => 0 := funext fun a => by fin_cases a <;> rfl

/-- The body's product contracts the left block's columns with the weights' rows, no batch axis, rows then columns. -/
theorem plain : IsPlain dot_S20000x8_S8x16_S20000x16_1_0_0_1_n_n := ⟨rfl, rfl, rfl, rfl, rfl, rfl⟩

/-- The left matrix as the region finds it. -/
abbrev left (c : Dev nD) : S200000x8.Idx → EReal := V c main_v47
/-- The weight matrix as the region finds it. -/
abbrev weights (c : Dev nD) : S8x16.Idx → EReal := V c main_arg4
/-- The whole product of the two: entry (p, q) is the sum over k of left (p, k) · weights (k, q). -/
abbrev whole (c : Dev nD) : S200000x16.Idx → EReal := prod (R := 200000) (K := 8) (N := 16) (left V c) (weights V c)

/-- The body's stored value at an entry: when the left block holds the rows from `o` on of a matrix `A` and the
    right block is `B`, entry (p, q) is the whole product of `A` and `B` at (o + p, q). -/
theorem stored_apply (A : S200000x8.Idx → EReal) (B : S8x16.Idx → EReal)
    (x0 : Vec Ideal S20000x8 .f32) (x1 : Vec Ideal S8x16 .f32) (o : ℕ) (ho : o + 20000 ≤ 200000)
    (hx0 : ∀ (p : Fin 20000) (k : Fin 8), x0 (ix2 p k) = A (ix2 ⟨o + p.val, by have := p.isLt; omega⟩ k))
    (hx1 : ∀ (k : Fin 8) (q : Fin 16), x1 (ix2 k q) = B (ix2 k q)) (p : Fin 20000) (q : Fin 16) :
    k1_pay1 (F := Ideal) x0 x1 (ix2 p q) = prod (R := 200000) (K := 8) (N := 16) A B (ix2 ⟨o + p.val, by have := p.isLt; omega⟩ q) := by
  unfold k1_pay1
  -- the body recasts the left block to its own shape before the product: the identity
  rw [shapeCast_self]
  exact matmul_rows (R := 200000) plain none A B _ _ o ho (fun p k => hx0 p k) (fun k q => hx1 k q) p q

/-- The printed index maps, decided over the ten grid points: the left window and the output window sit at row
    block t, the weights' window at the one block there is. -/
theorem points : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := lt_of_lt_of_eq t.isLt (show cfg1.N = 10 from N_1)

/-- The left window's block at point t is the rows 20000·t … 20000·t + 19999 of the left matrix. -/
theorem left_block (c : Dev nD) (t : Fin cfg1.N) (p : Fin 20000) (k : Fin 8) :
    (iblk1 V c 0 t : Vec Ideal S20000x8 .f32) (ix2 p k)
      = left V c (ix2 ⟨t.val * 20000 + p.val, by have := point_lt t; have := p.isLt; omega⟩ k) := by
  obtain ⟨e0, e1, -⟩ := points t
  unfold iblk1
  rw [View.read_apply]
  show V c main_v47 _ = V c main_v47 _
  refine congrArg (V c main_v47) ?_
  funext a; apply Fin.ext
  match a with
  | ⟨0, _⟩ => show win1_0.index t (0 : Fin 2) * 20000 + 1 * p.val = t.val * 20000 + p.val; rw [e0]; omega
  | ⟨1, _⟩ => show win1_0.index t (1 : Fin 2) * 8 + 1 * k.val = k.val; rw [e1]; omega

/-- The weights' window's block at every point is the whole weight matrix. -/
theorem weights_block (c : Dev nD) (t : Fin cfg1.N) (k : Fin 8) (q : Fin 16) :
    (iblk1 V c 1 t : Vec Ideal S8x16 .f32) (ix2 k q) = weights V c (ix2 k q) := by
  obtain ⟨-, -, e2, e3, -⟩ := points t
  unfold iblk1
  rw [View.read_apply]
  show V c main_arg4 _ = V c main_arg4 _
  refine congrArg (V c main_arg4) ?_
  funext a; apply Fin.ext
  match a with
  | ⟨0, _⟩ => show win1_1.index t (0 : Fin 2) * 8 + 1 * k.val = k.val; rw [e2]; omega
  | ⟨1, _⟩ => show win1_1.index t (1 : Fin 2) * 16 + 1 * q.val = q.val; rw [e3]; omega

/-- WHAT POINT t WRITES BACK is block t of the whole product. -/
theorem written (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S20000x8) origin, View.ld_unit_zero (S := S8x16) origin]
  obtain ⟨-, -, -, -, e4, e5⟩ := points t
  funext j
  obtain ⟨p, q, rfl⟩ : ∃ (p : Fin 20000) (q : Fin 16), j = ix2 p q := ⟨j 0, j 1, eq_ix2 j⟩
  refine (stored_apply (left V c) (weights V c) _ _ (t.val * 20000) (by have := point_lt t; omega)
    (fun p k => left_block V c t p k) (fun k q => weights_block V c t k q) p q).trans ?_
  show whole V c _ = whole V c (((cfg1.win 2).blk t).view.emb (ix2 p q))
  refine congrArg (whole V c) ?_
  funext a; apply Fin.ext
  match a with
  | ⟨0, _⟩ => show t.val * 20000 + p.val = win1_2.index t (0 : Fin 2) * 20000 + 1 * p.val; rw [e4]; omega
  | ⟨1, _⟩ => show q.val = win1_2.index t (1 : Fin 2) * 16 + 1 * q.val; rw [e5]; omega

/-- An index of the output array is in point t's block iff each coordinate is in the block's range on its axis. -/
theorem mem_block (t : Fin cfg1.N) (i : S200000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v48).slice (win1_2.rect t)).set ↔ _
  rw [View.set_slice_whole, Rect.mem_set_unit]
  exact Iff.rfl

/-- Every index of the output array is in SOME point's block: row r is in block r / 20000. -/
theorem covered (i : S200000x16.Idx) :
    ∃ t : Fin cfg1.N, (cfg1.win 2).flush t = true ∧ i ∈ ((cfg1.win 2).blk t).view.set := by
  have hi0 : (i 0).val < 200000 := (i 0).isLt
  have hi1 : (i 1).val < 16 := (i 1).isLt
  have hN : cfg1.N = 10 := N_1
  let t : Fin cfg1.N := ⟨(i 0).val / 20000, by rw [hN]; omega⟩
  obtain ⟨-, -, -, -, e4, e5⟩ := points t
  have ht : t.val = (i 0).val / 20000 := rfl
  refine ⟨t, flush1_2 t, ?_⟩
  rw [mem_block]
  intro a
  match a with
  | ⟨0, _⟩ => show win1_2.index t (0 : Fin 2) * 20000 ≤ (i 0).val ∧ (i 0).val < win1_2.index t (0 : Fin 2) * 20000 + 20000; rw [e4, ht]; omega
  | ⟨1, _⟩ => show win1_2.index t (1 : Fin 2) * 16 ≤ (i 1).val ∧ (i 1).val < win1_2.index t (1 : Fin 2) * 16 + 16; rw [e5]; omega

/-- THE OUTPUT ARRAY after the region's ten points is the whole product of the two input arrays as entered. -/
theorem final (c : Dev nD) : (dat1 V c).arrAt 2 cfg1.N = whole V c :=
  (dat1 V c).arrAt_eq_of_cover 2 (whole V c) (fun t _ => written V c t) (covered)

end Cert.KernelIdeal.Layer2

end
-- ==== Proof.Net.lean ====
/-
  The two-layer graph convolution both programs compute, written once as small functions of abstract operands.

  The graph has 200000 nodes and 6400000 edges given as a [2, 6400000] integer array (row 0 the sources, row 1
  the targets); every node also gets a self-loop, so there are 6600000 edges in all. With deg(v) the number of
  edges into v, each edge (s, d) carries the weight deg(s)^(-1/2) · deg(d)^(-1/2) (0 where a degree is not
  positive). One layer projects the node features by a dense matrix, gathers the projected row of each edge's
  source, scales it by the edge's weight, sums the scaled rows into the edges' targets and adds a bias; the
  first layer is followed by max(·, 0).

  The dense projection is a PARAMETER here (`P1`, `P2`): the reference takes the host's general dot product,
  the kernel a product computed ten row blocks at a time, and everything around the projections is the same
  chain of host operations in both programs, which is therefore never opened.
-/
import proofs.«145075_j53197464928416_1_alg».proof.KernelIdeal
import proofs.«145075_j53197464928416_1_alg».proof.Proof.Gen.KernelIdeal

noncomputable section

open Idealize.ShloMosaic

namespace Cert.KernelIdeal.Net

open Cert.KernelIdeal Cert.KernelIdeal.Facts₀

variable {F : FTy → Type} [FloatOps F]

/-- An integer array of shape `S`. -/
abbrev IArr (F : FTy → Type) (S : Shape) : Type := (⟨S, .i32⟩ : BufTy).Contents (Elt F)
/-- A float array of shape `S`. -/
abbrev RArr (F : FTy → Type) (S : Shape) : Type := (⟨S, .f32⟩ : BufTy).Contents (Elt F)

/-- The edges' sources: row 0 of the edge list, then every node once (its self-loop). -/
def sources (e : IArr F S2x6400000) : IArr F S6600000 :=
  concatenate S6600000 0 [⟨S6400000, shapeCast _ (extractStridedSlice S1x6400000 ![0, 0] e slices_S2x6400000_S1x6400000_0_0) shapeCasts_S1x6400000_S6400000⟩, ⟨S200000, iotaInDim S200000 32 0⟩] concatenates_S6400000_S200000_S6600000_d0

/-- The edges' targets: row 1 of the edge list, then every node once (its self-loop). -/
def targets (e : IArr F S2x6400000) : IArr F S6600000 :=
  concatenate S6600000 0 [⟨S6400000, shapeCast _ (extractStridedSlice S1x6400000 ![1, 0] e slices_S2x6400000_S1x6400000_1_0) shapeCasts_S1x6400000_S6400000⟩, ⟨S200000, iotaInDim S200000 32 0⟩] concatenates_S6400000_S200000_S6600000_d0

/-- A node index per edge as the column a row gather takes: a negative index counts from the end (+ 200000). -/
def column (s : IArr F S6600000) : IArr F S6600000x1 :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- The degree of every node: a one per edge summed into the edge's target. -/
def degree (d : IArr F S6600000) : RArr F S200000 :=
  Host.scatterAdd scatter_S200000_S6600000x1_S6600000_n_0_0_1 (broadcastInDim S200000 ![] bcast_S_S200000 (constant S_ .f32 0x00000000#32)) (broadcastInDim S6600000x1 ![0] bcast_S6600000_S6600000x1_0 d) (broadcastInDim S6600000 ![] bcast_S_S6600000 (constant S_ .f32 0x3F800000#32))

/-- deg^(-1/2) where the degree is positive, 0 elsewhere. -/
def invRoot (d : IArr F S6600000) : RArr F S200000 :=
  select (cmpf (F := F) .ogt (degree d) (broadcastInDim S200000 ![] bcast_S_S200000 (constant S_ .f32 0x00000000#32))) (Host.rsqrt (degree d)) (broadcastInDim S200000 ![] bcast_S_S200000 (id (constant S_ .f32 0x00000000#32)))

/-- The weight of every edge: deg^(-1/2) at its source times deg^(-1/2) at its target. -/
def weight (s d : IArr F S6600000) : RArr F S6600000 :=
  mulf (Host.gather gather_S200000_S6600000x1_S6600000_n_0_n_n_0_1_1 (invRoot d) (column s)) (Host.gather gather_S200000_S6600000x1_S6600000_n_0_n_n_0_1_1 (invRoot d) (column d))

/-- The first layer after its projection `h`: the rows of `h` at the sources, scaled by the edge weights, summed
    into the targets, plus the bias, then max(·, 0). -/
def hidden (h : RArr F S200000x8) (s d : IArr F S6600000) (w : RArr F S6600000) (b : RArr F S8) : RArr F S200000x8 :=
  maximumf (addf (Host.scatterAdd scatter_S200000x8_S6600000x1_S6600000x8_1_0_0_1 (broadcastInDim S200000x8 ![] bcast_S_S200000x8 (constant S_ .f32 0x00000000#32)) (broadcastInDim S6600000x1 ![0] bcast_S6600000_S6600000x1_0 d) (mulf (Host.gather gather_S200000x8_S6600000x1_S6600000x8_1_0_n_n_0_1_18 h (column s)) (broadcastInDim S6600000x8 ![0, 1] bcast_S6600000x1_S6600000x8_0_1 (broadcastInDim S6600000x1 ![0] bcast_S6600000_S6600000x1_0 w)))) (broadcastInDim S200000x8 ![0, 1] bcast_S1x8_S200000x8_0_1 (broadcastInDim S1x8 ![1] bcast_S8_S1x8_1 b))) (broadcastInDim S200000x8 ![] bcast_S_S200000x8 (constant S_ .f32 0x00000000#32))

/-- The second layer after its projection `h`: the rows of `h` at the sources, scaled by the edge weights, summed
    into the targets, plus the bias. -/
def output (h : RArr F S200000x16) (s d : IArr F S6600000) (w : RArr F S6600000) (b : RArr F S16) : RArr F S200000x16 :=
  addf (Host.scatterAdd scatter_S200000x16_S6600000x1_S6600000x16_1_0_0_1 (broadcastInDim S200000x16 ![] bcast_S_S200000x16 (constant S_ .f32 0x00000000#32)) (broadcastInDim S6600000x1 ![0] bcast_S6600000_S6600000x1_0 d) (mulf (Host.gather gather_S200000x16_S6600000x1_S6600000x16_1_0_n_n_0_1_116 h (column s)) (broadcastInDim S6600000x16 ![0, 1] bcast_S6600000x1_S6600000x16_0_1 (broadcastInDim S6600000x1 ![0] bcast_S6600000_S6600000x1_0 w)))) (broadcastInDim S200000x16 ![0, 1] bcast_S1x16_S200000x16_0_1 (broadcastInDim S1x16 ![1] bcast_S16_S1x16_1 b))

/-- The whole network over the two projections `P1` and `P2`. -/
def net (P1 : RArr F S200000x128 → RArr F S128x8 → RArr F S200000x8) (P2 : RArr F S200000x8 → RArr F S8x16 → RArr F S200000x16)
    (x : RArr F S200000x128) (e : IArr F S2x6400000) (W1 : RArr F S128x8) (b1 : RArr F S8) (W2 : RArr F S8x16) (b2 : RArr F S16) : RArr F S200000x16 :=
  output (P2 (hidden (P1 x W1) (sources e) (targets e) (weight (sources e) (targets e)) b1) W2)
    (sources e) (targets e) (weight (sources e) (targets e)) b2

end Cert.KernelIdeal.Net

end
-- ==== Proof.KernelValue.lean ====
/-
  The kernel program's result is the network over the whole matrix products.

  The kernel program runs host operations, then its first region, host operations again, its second region,
  and a last stretch of host operations. What a buffer holds at each boundary is a fold from the launch
  memory: a host stretch rewrites the buffers it computes, a region rewrites its output array to what its ten
  write-backs leave — the whole product of its two input arrays as it found them (`Layer1.final`,
  `Layer2.final`) — and every other buffer keeps what it held.

  Read back boundary by boundary: before the first region the edge sources, the edge targets and the edge
  weights are `Net.sources`, `Net.targets` and `Net.weight` of the edge list, and the arguments are as
  launched; after it the hidden features are `Net.hidden` of the first product; after the second region the
  result is `Net.output` of the second product. Put together, the result buffer ends at the network `Net.net`
  over the whole products, of the argument arrays.

  What the host stretches leave is the same at every float family (nothing is computed: the two sides are the
  same operations in the same order), so those facts are stated for any family; only the two products are facts
  about the extended reals.
-/
import proofs.«145075_j53197464928416_1_alg».proof.Proof.Region0
import proofs.«145075_j53197464928416_1_alg».proof.Proof.Region1
import proofs.«145075_j53197464928416_1_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Net Idealize.ShloMosaic.RowBlockProduct

/-- The rewriting of a host stretch's fold inside the pieces of a concatenation, which the one-pass form does not enter. -/
macro "read_pieces" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

section AnyFamily

variable {F : FTy → Type} [FloatOps F]
variable (m : (ℓ : Loc nD τ sig) → Buf (Elt F) ℓ) (ρ : Dev nD → PrngReg)

/-! ## Across a region: every buffer that is not one of its arrays is kept -/

theorem exit1_kept (c : Dev nD) (b : Ref sig .tc) (hb : ∀ w, Pipeline.arrRef spec0 w ≠ b) :
    W4 m ρ c (Proc.devRef .tc b) = W3 m ρ c (Proc.devRef .tc b) := W4_of_ne m ρ c b hb
theorem exit2_kept (c : Dev nD) (b : Ref sig .tc) (hb : ∀ w, Pipeline.arrRef spec1 w ≠ b) :
    W7 m ρ c (Proc.devRef .tc b) = W6 m ρ c (Proc.devRef .tc b) := W7_of_ne m ρ c b hb

/-! ## Before the first region -/

/-- An argument array is as launched when the first region is entered: no host operation writes it. -/
theorem entry1_arg (c : Dev nD) (b : Ref sig .tc) (hb : b = main_arg0 ∨ b = main_arg1 ∨ b = main_arg2 ∨ b = main_arg3 ∨ b = main_arg4 ∨ b = main_arg5) :
    W3 m ρ c (Proc.devRef .tc b) = m ((c : Thread nD τ).loc b) := by
  rcases hb with rfl | rfl | rfl | rfl | rfl | rfl <;>
  · show StableHlo.after hostOps0_2 (StableHlo.after hostOps0_1 (StableHlo.after hostOps0 (W0 m ρ c))) _ = _
    after_results_simp

/-- The first seven host operations build the two index vectors; the rest of the stretch reads them as given. -/
theorem ops_cut : (hostOps0 : List (HloOp τ sig (Elt F))) = List.take 7 hostOps0 ++ List.drop 7 hostOps0 :=
  (List.take_append_drop 7 _).symm

/-- The edge sources, right after the operations that build them. -/
theorem built_sources (c : Dev nD) :
    StableHlo.after (List.take 7 hostOps0) (W0 m ρ c) (Proc.devRef .tc main_v5) = sources (m ((c : Thread nD τ).loc main_arg1)) := by
  simp only [hostOps0, List.take_succ_cons, List.take_zero]
  after_results_simp
  read_pieces
  rfl

/-- The edge targets, right after the operations that build them. -/
theorem built_targets (c : Dev nD) :
    StableHlo.after (List.take 7 hostOps0) (W0 m ρ c) (Proc.devRef .tc main_v6) = targets (m ((c : Thread nD τ).loc main_arg1)) := by
  simp only [hostOps0, List.take_succ_cons, List.take_zero]
  after_results_simp
  read_pieces
  rfl

/-- From ANY contents `V'`, the operations after the index vectors are built keep the two vectors. -/
theorem kept_from (V' : Valuation τ sig (Elt F)) (b : Ref sig .tc) (hb : b = main_v5 ∨ b = main_v6) :
    StableHlo.after hostOps0_2 (StableHlo.after hostOps0_1 (StableHlo.after (List.drop 7 hostOps0) V')) (Proc.devRef .tc b)
      = V' (Proc.devRef .tc b) := by
  rcases hb with rfl | rfl <;>
  · simp only [hostOps0, List.drop_succ_cons, List.drop_zero]
    after_results_simp

set_option maxHeartbeats 1000000 in
/-- From ANY contents `V'`, the operations after the index vectors are built leave in the weights' buffer the edge
    weights of the two index vectors `V'` holds: the degrees, their inverse roots, the two gathers and the product. -/
theorem weight_from (V' : Valuation τ sig (Elt F)) :
    StableHlo.after hostOps0_2 (StableHlo.after hostOps0_1 (StableHlo.after (List.drop 7 hostOps0) V')) (Proc.devRef .tc main_v29)
      = weight (V' (Proc.devRef .tc main_v5)) (V' (Proc.devRef .tc main_v6)) := by
  simp only [hostOps0, List.drop_succ_cons, List.drop_zero]
  after_results_simp
  rfl

/-- The edge sources when the first region is entered. -/
theorem entry1_sources (c : Dev nD) : W3 m ρ c (Proc.devRef .tc main_v5) = sources (m ((c : Thread nD τ).loc main_arg1)) := by
  show StableHlo.after hostOps0_2 (StableHlo.after hostOps0_1 (StableHlo.after hostOps0 (W0 m ρ c))) _ = _
  rw [ops_cut, StableHlo.after_append, kept_from _ main_v5 (.inl rfl), built_sources]

/-- The edge targets when the first region is entered. -/
theorem entry1_targets (c : Dev nD) : W3 m ρ c (Proc.devRef .tc main_v6) = targets (m ((c : Thread nD τ).loc main_arg1)) := by
  show StableHlo.after hostOps0_2 (StableHlo.after hostOps0_1 (StableHlo.after hostOps0 (W0 m ρ c))) _ = _
  rw [ops_cut, StableHlo.after_append, kept_from _ main_v6 (.inr rfl), built_targets]

/-- The edge weights when the first region is entered. -/
theorem entry1_weight (c : Dev nD) :
    W3 m ρ c (Proc.devRef .tc main_v29) = weight (sources (m ((c : Thread nD τ).loc main_arg1))) (targets (m ((c : Thread nD τ).loc main_arg1))) := by
  show StableHlo.after hostOps0_2 (StableHlo.after hostOps0_1 (StableHlo.after hostOps0 (W0 m ρ c))) _ = _
  rw [ops_cut, StableHlo.after_append, weight_from, built_sources, built_targets]

/-! ## Between the regions -/

/-- A buffer the middle stretch does not write keeps what the first region's exit left. -/
theorem entry2_kept (c : Dev nD) (b : Ref sig .tc) (hb : b = main_v5 ∨ b = main_v6 ∨ b = main_v29 ∨ b = main_arg4 ∨ b = main_arg5) :
    W6 m ρ c (Proc.devRef .tc b) = W4 m ρ c (Proc.devRef .tc b) := by
  rcases hb with rfl | rfl | rfl | rfl | rfl <;>
  · show StableHlo.after hostOps1_1 (StableHlo.after hostOps1 (W4 m ρ c)) _ = _
    after_results_simp

/-- The hidden features: the first layer's aggregate of the first region's output. -/
theorem entry2_hidden (c : Dev nD) :
    W6 m ρ c (Proc.devRef .tc main_v47) = hidden (W4 m ρ c (Proc.devRef .tc main_v30)) (W4 m ρ c (Proc.devRef .tc main_v5))
      (W4 m ρ c (Proc.devRef .tc main_v6)) (W4 m ρ c (Proc.devRef .tc main_v29)) (W4 m ρ c (Proc.devRef .tc main_arg3)) := by
  show StableHlo.after hostOps1_1 (StableHlo.after hostOps1 (W4 m ρ c)) _ = _
  after_results_simp
  rfl

/-! ## After the second region -/

/-- The result: the second layer's aggregate of the second region's output. -/
theorem exit_output (c : Dev nD) :
    W8 m ρ c (Proc.devRef .tc main_v64) = output (W7 m ρ c (Proc.devRef .tc main_v48)) (W7 m ρ c (Proc.devRef .tc main_v5))
      (W7 m ρ c (Proc.devRef .tc main_v6)) (W7 m ρ c (Proc.devRef .tc main_v29)) (W7 m ρ c (Proc.devRef .tc main_arg5)) := by
  show StableHlo.after hostOps2 (W7 m ρ c) _ = _
  after_results_simp
  rfl

end AnyFamily

/-! ## On the extended reals: the regions' products, and the whole -/

variable (m : (ℓ : Loc nD τ sig) → Buf (Elt Ideal) ℓ) (ρ : Dev nD → PrngReg)

theorem exit1_product (c : Dev nD) : W4 m ρ c (Proc.devRef .tc main_v30) = Layer1.whole (V3 m ρ) c :=
  (W4_arr m ρ c 2).trans (Layer1.final (V3 m ρ) c)
theorem exit2_product (c : Dev nD) : W7 m ρ c (Proc.devRef .tc main_v48) = Layer2.whole (V6 m ρ) c :=
  (W7_arr m ρ c 2).trans (Layer2.final (V6 m ρ) c)

/-- The whole product of an [R, K] and a [K, N] matrix, as the projection the network takes. -/
abbrev wholeP1 (l : RArr Ideal S200000x128) (r : RArr Ideal S128x8) : RArr Ideal S200000x8 := prod (R := 200000) (K := 128) (N := 8) l r
abbrev wholeP2 (l : RArr Ideal S200000x8) (r : RArr Ideal S8x16) : RArr Ideal S200000x16 := prod (R := 200000) (K := 8) (N := 16) l r

/-- THE KERNEL PROGRAM'S RESULT: the network over the whole products, of the argument arrays as launched. -/
theorem result_eq_net (c : Dev nD) :
    W8 m ρ c (Proc.devRef .tc main_v64)
      = net (F := Ideal) wholeP1 wholeP2
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [exit_output, exit2_product, exit2_kept m ρ c main_v5 (by decide), exit2_kept m ρ c main_v6 (by decide),
    exit2_kept m ρ c main_v29 (by decide), exit2_kept m ρ c main_arg5 (by decide)]
  dsimp only [Layer2.whole, Layer2.left, Layer2.weights, V6]
  rw [entry2_hidden, entry2_kept m ρ c main_v5 (.inl rfl), entry2_kept m ρ c main_v6 (.inr (.inl rfl)),
    entry2_kept m ρ c main_v29 (.inr (.inr (.inl rfl))), entry2_kept m ρ c main_arg4 (.inr (.inr (.inr (.inl rfl)))),
    entry2_kept m ρ c main_arg5 (.inr (.inr (.inr (.inr rfl))))]
  rw [exit1_product, exit1_kept m ρ c main_v5 (by decide), exit1_kept m ρ c main_v6 (by decide), exit1_kept m ρ c main_v29 (by decide),
    exit1_kept m ρ c main_arg3 (by decide), exit1_kept m ρ c main_arg4 (by decide), exit1_kept m ρ c main_arg5 (by decide)]
  dsimp only [Layer1.whole, Layer1.left, Layer1.weights, V3]
  rw [entry1_sources, entry1_targets, entry1_weight,
    entry1_arg m ρ c main_arg0 (.inl rfl), entry1_arg m ρ c main_arg2 (.inr (.inr (.inl rfl))),
    entry1_arg m ρ c main_arg3 (.inr (.inr (.inr (.inl rfl)))), entry1_arg m ρ c main_arg4 (.inr (.inr (.inr (.inr (.inl rfl))))),
    entry1_arg m ρ c main_arg5 (.inr (.inr (.inr (.inr (.inr rfl)))))]
  rfl

end Cert.KernelIdeal.Chain

end
-- ==== Proof.RefValue.lean ====
/-
  The reference's result is the network over the host's general dot products.

  The reference program is straight-line host code: its run ends with the result array at one composed term
  of the argument arrays. Read from the inside out that term is the network of `Net` — the edge list with its
  self-loops, the degrees, the edge weights, and per layer: project, gather at the sources, scale, sum into
  the targets, add the bias (then max(·, 0) after the first layer) — with the host's `dot_general` as both
  projections. (The reference computes the edge weights once per layer; the two computations are the same
  operations of the same operands, hence one term.) The statement is at any float family: nothing is
  computed, the two sides are the same operations in the same order.
-/
import proofs.«145075_j53197464928416_1_alg».proof.Proof.RefRun
import proofs.«145075_j53197464928416_1_alg».proof.Proof.Net

set_option maxRecDepth 16384

noncomputable section

open Idealize.ShloMosaic Idealize.ShloMosaic.TcCoe Idealize.SL.Sem

namespace Cert.ReferenceIdeal.Chain

open Cert.ReferenceIdeal Cert.KernelIdeal.Net

variable {F : FTy → Type} [FloatOps F]

/-- The host's projection of the first layer. -/
abbrev hostP1 (l : RArr F Cert.KernelIdeal.S200000x128) (r : RArr F Cert.KernelIdeal.S128x8) : RArr F Cert.KernelIdeal.S200000x8 :=
  Host.dotGeneral dot_S200000x128_S128x8_S200000x8_1_0_0_1_n_n none l r
/-- The host's projection of the second layer. -/
abbrev hostP2 (l : RArr F Cert.KernelIdeal.S200000x8) (r : RArr F Cert.KernelIdeal.S8x16) : RArr F Cert.KernelIdeal.S200000x16 :=
  Host.dotGeneral dot_S200000x8_S8x16_S200000x16_1_0_0_1_n_n none l r

set_option maxHeartbeats 2000000 in
/-- The reference run's result term is the network over the host's dot products, of the reference's argument arrays. -/
theorem result_eq_net (m : (ℓ : Loc nD τ sig) → Buf (Elt F) ℓ) (c : Dev nD) :
    Cert.ReferenceIdeal.RunP.res_main_v79 (F := F) m c
      = net (F := F) hostP1 hostP2
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v79
  rfl

end Cert.ReferenceIdeal.Chain

end
-- ==== Proof.lean ====
/-
  A two-layer graph convolution with its dense projections as tiled matrix products, against the same network
  with the host's matrix products: equal results on the extended reals.

  Both programs build the edge list with self-loops, the node degrees, the edge weights
  deg(s)^(-1/2) · deg(d)^(-1/2), and per layer project the node features, gather the projected rows at the
  edges' sources, scale them by the edge weights, sum them into the edges' targets and add a bias (max(·, 0)
  after the first layer). They differ in one thing only: the reference projects with one general dot product
  over the whole [200000, K] matrix, the kernel with a product computed ten row blocks of 20000 rows at a
  time, each block multiplied into a zero accumulator after a change of float format that is the identity on
  the extended reals.

  Entry (p, q) of a matrix product is the sum over k of left (p, k) · right (k, q): it reads one row of the left
  matrix. So a row block's product is those rows of the whole product, the ten blocks tile the rows, and each
  region's output array ends holding the whole product (`Layer1.final`, `Layer2.final`); the host's general dot
  product is the same sum (`dotGeneral_eq_prod`). No sum is regrouped and nothing is cancelled, so the
  certificate never needs the inputs to be finite. Everything around the projections is the same chain of host
  operations on both sides (`Net.net`), carried unopened: the kernel program's result is `net` over the whole
  products (`KernelIdeal.Chain.result_eq_net`), the reference's is `net` over the host's dot products
  (`ReferenceIdeal.Chain.result_eq_net`), and the two projections are one function.

  The three frames: the two kernel programs' by their generated frame certificates, the reference's by its run
  with the result dropped. The idealization rewrote no operation, so there is nothing to preserve.
-/
import proofs.«145075_j53197464928416_1_alg».proof.Defs
import proofs.«145075_j53197464928416_1_alg».proof.Proof.Gen.Kernel
import proofs.«145075_j53197464928416_1_alg».proof.Proof.Gen.Kernel.Skeleton
import proofs.«145075_j53197464928416_1_alg».proof.Proof.Gen.Kernel.Launch
import proofs.«145075_j53197464928416_1_alg».proof.Proof.Gen.Kernel.Points
import proofs.«145075_j53197464928416_1_alg».proof.Proof.Gen.Kernel.Frame
import proofs.«145075_j53197464928416_1_alg».proof.Proof.Gen.KernelIdeal
import proofs.«145075_j53197464928416_1_alg».proof.Proof.Gen.KernelIdeal.Skeleton
import proofs.«145075_j53197464928416_1_alg».proof.Proof.Gen.KernelIdeal.Launch
import proofs.«145075_j53197464928416_1_alg».proof.Proof.Gen.KernelIdeal.Points
import proofs.«145075_j53197464928416_1_alg».proof.Proof.Gen.KernelIdeal.Frame
import proofs.«145075_j53197464928416_1_alg».proof.Proof.Gen.ReferenceIdeal
import proofs.«145075_j53197464928416_1_alg».proof.Proof.Gen.Pre_finite_inputs
import proofs.«145075_j53197464928416_1_alg».proof.Proof.KernelRun
import proofs.«145075_j53197464928416_1_alg».proof.Proof.KernelValue
import proofs.«145075_j53197464928416_1_alg».proof.Proof.RefRun
import proofs.«145075_j53197464928416_1_alg».proof.Proof.RefValue
import Idealize.ShloMosaic.Adequacy
import Idealize.ShloMosaic.Init

noncomputable section

namespace Cert.Proof

open Idealize.ShloMosaic Idealize.SL.Sem
open Cert.KernelIdeal.Net Idealize.ShloMosaic.RowBlockProduct Idealize.ShloMosaic.PlainDot

/-- The host's two dot products contract the left operand's columns with the right operand's rows. -/
theorem plain1 : IsPlain Cert.ReferenceIdeal.dot_S200000x128_S128x8_S200000x8_1_0_0_1_n_n := ⟨rfl, rfl, rfl, rfl, rfl, rfl⟩
theorem plain2 : IsPlain Cert.ReferenceIdeal.dot_S200000x8_S8x16_S200000x16_1_0_0_1_n_n := ⟨rfl, rfl, rfl, rfl, rfl, rfl⟩

/-- On the extended reals the host's projections are the whole products the kernel's regions leave. -/
theorem projection1 : Cert.ReferenceIdeal.Chain.hostP1 (F := Ideal) = Cert.KernelIdeal.Chain.wholeP1 :=
  funext fun l => funext fun r => dotGeneral_eq_prod plain1 none l r
theorem projection2 : Cert.ReferenceIdeal.Chain.hostP2 (F := Ideal) = Cert.KernelIdeal.Chain.wholeP2 :=
  funext fun l => funext fun r => dotGeneral_eq_prod plain2 none l r

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with the result array at the network over the whole matrix products, of arguments that agree. -/
theorem algebraic : Cert.algebraic_KernelIdeal_ReferenceIdeal := by
  intro m ρ m' ρ' _ hagree
  refine ⟨fun c => net (F := Ideal) Cert.KernelIdeal.Chain.wholeP1 Cert.KernelIdeal.Chain.wholeP2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq_net m ρ c), (h c).2⟩)
      (Cert.KernelIdeal.RunP.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨a0, a1, a2, a3, a4, a5⟩ := hagree c
    rw [Cert.ReferenceIdeal.Chain.result_eq_net, a0, a1, a2, a3, a4, a5, projection1, projection2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
